-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x65536 : Shape := ⟨2, ![1024, 65536]⟩
abbrev S1024x128 : Shape := ⟨2, ![1024, 128]⟩
abbrev S65536x128 : Shape := ⟨2, ![65536, 128]⟩
abbrev S_ : Shape := ⟨0, ![]⟩

class Facts : Prop where
  bcast_S_S1024x65536 : S_.BroadcastsInDim S1024x65536 (![] : Fin 0 → Fin S1024x65536.rank)
  reducesTo_S1024x65536_S_d0_1 : S1024x65536.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_v13 : IVec S_ 1) (main_v16 : IVec S65536x128 1) : IVec S_ 1 :=
  let main_c_5 : IVec S_ 1 := constantI S_ 1 1#1
  let main_v17 : IVec S_ 1 := (fun x v => Host.reduce IntOp.andi x v reducesTo_S65536x128_S_d0_1 h_S_) main_v16 main_c_5
  let main_v18 : IVec S_ 1 := andi main_v13 main_v17
  main_v18

def fn {F : FTy → Type} [FloatOps F] (main_arg0 : FVec F S1024x65536 .f32) (main_arg1 : FVec F S1024x128 .f32) (main_arg2 : FVec F S1024x128 .f32) (main_arg3 : FVec F S65536x128 .f32) : IVec S_ 1 :=
  let main_v0 : FVec F S1024x65536 .f32 := Host.absf main_arg0
  let main_cst : FVec F S_ .f32 := constant S_ .f32 0x7F800000#32
  let main_v1 : FVec F S1024x65536 .f32 := broadcastInDim S1024x65536 ![] bcast_S_S1024x65536 main_cst
  let main_v2 : IVec S1024x65536 1 := cmpf .olt main_v0 main_v1
  let main_c : IVec S_ 1 := constantI S_ 1 1#1
  let main_v3 : IVec S_ 1 := (fun x v => Host.reduce IntOp.andi x v reducesTo_S1024x65536_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S65536x128 .f32 := Host.absf main_arg3
  let main_cst_4 : FVec F S_ .f32 := constant S_ .f32 0x7F800000#32
  let main_v15 : FVec F S65536x128 .f32 := broadcastInDim S65536x128 ![] bcast_S_S65536x128 main_cst_4
  let main_v16 : IVec S65536x128 1 := cmpf .olt main_v14 main_v15
  fn_part1 (F := F) main_v13 main_v16
-- ==== Kernel.lean ====
abbrev S1024x65536 : Shape := ⟨2, ![1024, 65536]⟩
abbrev S1024x128 : Shape := ⟨2, ![1024, 128]⟩
abbrev S65536x128 : Shape := ⟨2, ![65536, 128]⟩
abbrev S1024x2048 : Shape := ⟨2, ![1024, 2048]⟩
abbrev S2048x128 : Shape := ⟨2, ![2048, 128]⟩

abbrev nBuf : Space → Nat
  | .hbm => 5
  | .vmem => 8
  | .smem => 0
  | _ => 0

abbrev bufTy : (tb : Table) → Fin (tcTables nBuf tb) → BufTy
  | .hbm, ⟨0, _⟩ => ⟨S1024x65536, .f32⟩
  | .hbm, ⟨1, _⟩ => ⟨S1024x128, .f32⟩
  | .hbm, ⟨2, _⟩ => ⟨S1024x128, .f32⟩
  | .hbm, ⟨3, _⟩ => ⟨S65536x128, .f32⟩
  | .hbm, ⟨4, _⟩ => ⟨S1024x128, .f32⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S1024x128, .f32⟩
  | .local _ .vmem, ⟨7, _⟩ => ⟨S1024x128, .f32⟩
  | _, _ => ⟨S1024x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v23 : BitVec 1 := Scalar.cmpi .eq arg0 c31_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  dot_S1024x2048_S1024x128_S2048x128_0_0_1_1_n_n_wf : DotDims.WF S1024x2048 S1024x128 S2048x128 [0] [0] [1] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x65536.size a
  hwx0_0 : ∀ i : grid0.Coords, EltTy.bits .f32 = 32 ∨ (Rect.block (s := S1024x65536) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)

variable [Facts₀]

def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x65536 : Shape := ⟨2, ![1024, 65536]⟩
abbrev S1024x128 : Shape := ⟨2, ![1024, 128]⟩
abbrev S65536x128 : Shape := ⟨2, ![65536, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S1024x128, .f32⟩
  | .hbm, ⟨2, _⟩ => ⟨S1024x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S_, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S65536x128, .f32⟩
  | .hbm, ⟨11, _⟩ => ⟨S1024x128, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  dot_S1024x65536_S1024x128_S65536x128_0_0_1_1_n_n_wf : DotDims.WF S1024x65536 S1024x128 S65536x128 [0] [0] [1] [1] [] []
  dot_S1024x65536_S65536x128_S1024x128_1_0_0_1_n_n_wf : DotDims.WF S1024x65536 S65536x128 S1024x128 [1] [0] [0] [1] [] []

variable [Facts₀]

def dot_S1024x65536_S1024x128_S65536x128_0_0_1_1_n_n : DotDims S1024x65536 S1024x128 S65536x128 where
  lhsContracting := [0]
  rhsContracting := [0]
  lhsNonContracting := [1]
  rhsNonContracting := [1]
  lhsBatch := []
  rhsBatch := []
  wf := dot_S1024x65536_S1024x128_S65536x128_0_0_1_1_n_n_wf
def dot_S1024x65536_S65536x128_S1024x128_1_0_0_1_n_n : DotDims S1024x65536 S65536x128 S1024x128 where
  lhsContracting := [1]
  rhsContracting := [0]
  lhsNonContracting := [0]
  rhsNonContracting := [1]
  lhsBatch := []
  rhsBatch := []
  wf := dot_S1024x65536_S65536x128_S1024x128_1_0_0_1_n_n_wf

class Facts : Prop extends Facts₀ where

variable [Facts]
-- ==== Proof.Pieces.lean ====
/-
  What one grid point leaves behind, read as a value.

  The body keeps a running total in a scratch buffer. At the first point it stores the zero block there, reads it back and
  stores the total plus this tile's contribution; at every later point it reads what the point before left and stores
  that plus this tile's contribution; at the last point it also copies the scratch, after that store, into the output
  buffer. In every case the store is the body's one arithmetic term of the four loaded blocks and of what the scratch
  held when it was read: the address block, the memory block, the erase block and the add block, in the order the term
  takes them.
-/
import proofs.«162213_j68324339745366_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- A store or load at the origin of a rank-two buffer. -/
theorem origin : (![0, 0] : Fin 2 → Nat) = fun _ => 0 := funext fun a => by fin_cases a <;> rfl

/-- First point: the scratch ends at the body's term over the zero block it has just stored. -/
theorem scratch_first (c : Dev nD) (i : grid0.Coords) (a1 : Memref sig .tc .vmem S1024x2048 .f32) (h1 : a1.IsWhole) (a2 : Memref sig .tc .vmem S1024x128 .f32) (h2 : a2.IsWhole) (a3 : Memref sig .tc .vmem S1024x128 .f32) (h3 : a3.IsWhole) (a4 : Memref sig .tc .vmem S2048x128 .f32) (h4 : a4.IsWhole) (a5 : Memref sig .tc .vmem S1024x128 .f32) (h5 : a5.IsWhole) (a6 : Memref sig .tc .vmem S1024x128 .f32) (h6 : a6.IsWhole) (hc0 : cond0_0 i) (hc1 : ¬cond0_1 i) (x0 : Vec F S1024x2048 .f32) (x1 : Vec F S1024x128 .f32) (x2 : Vec F S1024x128 .f32) (x3 : Vec F S2048x128 .f32) :
    sout0_A_0 c i a1 h1 a2 h2 a3 h3 a4 h4 a5 h5 a6 h6 hc0 hc1 x0 x1 x2 x3 = k0_pay2 x0 x3 x1 x2 (k0_pay1 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1024x128) origin, View.readCov_unit_zero (S := S1024x128) _ origin]
  simp only [View.readAt_eq_ld, h1.read_unread, h2.read_unread, h3.read_unread, h4.read_unread, View.ld_unit_zero (S := S1024x2048) origin,
    View.ld_unit_zero (S := S2048x128) origin, View.ld_unit_zero (S := S1024x128) origin]

/-- A middle point: the scratch ends at the body's term over what the point before left. -/
theorem scratch_middle (c : Dev nD) (i : grid0.Coords) (a1 : Memref sig .tc .vmem S1024x2048 .f32) (h1 : a1.IsWhole) (a2 : Memref sig .tc .vmem S1024x128 .f32) (h2 : a2.IsWhole) (a3 : Memref sig .tc .vmem S1024x128 .f32) (h3 : a3.IsWhole) (a4 : Memref sig .tc .vmem S2048x128 .f32) (h4 : a4.IsWhole) (a5 : Memref sig .tc .vmem S1024x128 .f32) (h5 : a5.IsWhole) (a6 : Memref sig .tc .vmem S1024x128 .f32) (h6 : a6.IsWhole) (hc0 : ¬cond0_0 i) (hc1 : ¬cond0_1 i) (x0 : Vec F S1024x2048 .f32) (x1 : Vec F S1024x128 .f32) (x2 : Vec F S1024x128 .f32) (x3 : Vec F S2048x128 .f32) (xs0 : Vec F S1024x128 .f32) :
    sout0_B_0 c i a1 h1 a2 h2 a3 h3 a4 h4 a5 h5 a6 h6 hc0 hc1 x0 x1 x2 x3 xs0 = k0_pay2 x0 x3 x1 x2 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  sl_unfold_words
  rw [View.canon_unit_zero origin]
  simp only [View.readAt_eq_ld, h1.read_unread, h2.read_unread, h3.read_unread, h4.read_unread, h6.read_unread, View.ld_unit_zero (S := S1024x2048) origin,
    View.ld_unit_zero (S := S2048x128) origin, View.ld_unit_zero (S := S1024x128) origin]

/-- Last point: the scratch ends at the body's term over what the point before left, -/
theorem scratch_last (c : Dev nD) (i : grid0.Coords) (a1 : Memref sig .tc .vmem S1024x2048 .f32) (h1 : a1.IsWhole) (a2 : Memref sig .tc .vmem S1024x128 .f32) (h2 : a2.IsWhole) (a3 : Memref sig .tc .vmem S1024x128 .f32) (h3 : a3.IsWhole) (a4 : Memref sig .tc .vmem S2048x128 .f32) (h4 : a4.IsWhole) (a5 : Memref sig .tc .vmem S1024x128 .f32) (h5 : a5.IsWhole) (a6 : Memref sig .tc .vmem S1024x128 .f32) (h6 : a6.IsWhole) (hc0 : ¬cond0_0 i) (hc1 : cond0_1 i) (x0 : Vec F S1024x2048 .f32) (x1 : Vec F S1024x128 .f32) (x2 : Vec F S1024x128 .f32) (x3 : Vec F S2048x128 .f32) (xs0 : Vec F S1024x128 .f32) :
    sout0_C_0 c i a1 h1 a2 h2 a3 h3 a4 h4 a5 h5 a6 h6 hc0 hc1 x0 x1 x2 x3 xs0 = k0_pay2 x0 x3 x1 x2 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero origin]
  simp only [View.readAt_eq_ld, h1.read_unread, h2.read_unread, h3.read_unread, h4.read_unread, h6.read_unread, View.ld_unit_zero (S := S1024x2048) origin,
    View.ld_unit_zero (S := S2048x128) origin, View.ld_unit_zero (S := S1024x128) origin]

/-- and the output buffer ends at the same block: the scratch read back after that store. -/
theorem output_last (c : Dev nD) (i : grid0.Coords) (a1 : Memref sig .tc .vmem S1024x2048 .f32) (h1 : a1.IsWhole) (a2 : Memref sig .tc .vmem S1024x128 .f32) (h2 : a2.IsWhole) (a3 : Memref sig .tc .vmem S1024x128 .f32) (h3 : a3.IsWhole) (a4 : Memref sig .tc .vmem S2048x128 .f32) (h4 : a4.IsWhole) (a5 : Memref sig .tc .vmem S1024x128 .f32) (h5 : a5.IsWhole) (a6 : Memref sig .tc .vmem S1024x128 .f32) (h6 : a6.IsWhole) (hc0 : ¬cond0_0 i) (hc1 : cond0_1 i) (x0 : Vec F S1024x2048 .f32) (x1 : Vec F S1024x128 .f32) (x2 : Vec F S1024x128 .f32) (x3 : Vec F S2048x128 .f32) (xs0 : Vec F S1024x128 .f32) :
    out0_C_4 c i a1 h1 a2 h2 a3 h3 a4 h4 a5 h5 a6 h6 hc0 hc1 x0 x1 x2 x3 xs0 = k0_pay2 x0 x3 x1 x2 xs0 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero origin, View.readCov_unit_zero (S := S1024x128) _ origin]
  simp only [View.readAt_eq_ld, h1.read_unread, h2.read_unread, h3.read_unread, h4.read_unread, h6.read_unread, View.ld_unit_zero (S := S1024x2048) origin,
    View.ld_unit_zero (S := S2048x128) origin, View.ld_unit_zero (S := S1024x128) origin]

end Cert.KernelIdeal.Acc

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The mathematics of the memory write-then-read, apart from any program.

  Memory has rows indexed by `n`, each of width `M`; a batch of `B` heads addresses it with weights `a b n`.
  The write replaces row `n` by `c n m * (one - ∑ b, a b n * e b m) + ∑ b, a b n * d b m` (an erase term and an add
  term, each aggregated over the batch), and the read returns, for head `b`, the address-weighted sum of the new rows.

  Everything is stated on the extended reals and uses only that their addition is commutative and associative with
  neutral element zero: the read sum over all rows may be taken tile by tile, and a running total that starts from zero
  and adds one tile's contribution at a time ends at the sum of the contributions. No distributivity is used, so no
  finiteness of the inputs is needed.
-/
import Mathlib.Data.EReal.Operations
import Mathlib.Algebra.BigOperators.Fin
import Mathlib.Algebra.BigOperators.Intervals
import Mathlib.Logic.Equiv.Fin.Basic
import Idealize.ShloMosaic.Lib.ValueIdx
import Idealize.ShloMosaic.PureOps.Ideal

noncomputable section

open scoped BigOperators

namespace Cert.NtmSpec

/-- The rewritten memory entry `(n, m)`: the old entry scaled by one minus the aggregated erase weight, plus the
    aggregated add weight. `a` is read at `(b, n)`. -/
def written {β ν μ : Type} [Fintype β] (one : EReal) (a : β → ν → EReal) (c : ν → μ → EReal) (e d : β → μ → EReal)
    (n : ν) (m : μ) : EReal :=
  c n m * (one - ∑ b, a b n * e b m) + ∑ b, a b n * d b m

/-- The read of head `b`, lane `m`, over the rows `ν`: the address-weighted sum of the rewritten rows. -/
def readOut {β ν μ : Type} [Fintype β] [Fintype ν] (one : EReal) (a : β → ν → EReal) (c : ν → μ → EReal)
    (e d : β → μ → EReal) (b : β) (m : μ) : EReal :=
  ∑ n, a b n * written one a c e d n m

/-- Row `j` of tile `t`, among 65536 rows cut into 32 tiles of 2048. -/
def tileRow (t : Fin 32) (j : Fin 2048) : Fin 65536 := ⟨2048 * t.val + j.val, by omega⟩

/-- A sum over the 65536 rows is the sum over the 32 tiles of the sums over each tile's 2048 rows. -/
theorem sum_rows_eq_sum_tiles {A : Type} [AddCommMonoid A] (f : Fin 65536 → A) :
    ∑ n : Fin 65536, f n = ∑ t : Fin 32, ∑ j : Fin 2048, f (tileRow t j) := by
  rw [← Equiv.sum_comp (finProdFinEquiv : Fin 32 × Fin 2048 ≃ Fin 65536) f, Fintype.sum_prod_type]
  refine Finset.sum_congr rfl fun t _ => Finset.sum_congr rfl fun j _ => congrArg f (Fin.ext ?_)
  show j.val + 2048 * t.val = 2048 * t.val + j.val
  omega

/-- The part of the address matrix and of the memory that tile `t` sees. -/
def tileA {β : Type} (a : β → Fin 65536 → EReal) (t : Fin 32) : β → Fin 2048 → EReal := fun b j => a b (tileRow t j)
def tileC {μ : Type} (c : Fin 65536 → μ → EReal) (t : Fin 32) : Fin 2048 → μ → EReal := fun j m => c (tileRow t j) m

/-- The rewritten entry depends only on its own row, so a tile rewrites its rows as the whole memory does. -/
theorem written_tile {β μ : Type} [Fintype β] (one : EReal) (a : β → Fin 65536 → EReal) (c : Fin 65536 → μ → EReal)
    (e d : β → μ → EReal) (t : Fin 32) (j : Fin 2048) (m : μ) :
    written one (tileA a t) (tileC c t) e d j m = written one a c e d (tileRow t j) m := rfl

/-- The whole read is the sum over the tiles of each tile's read. -/
theorem readOut_eq_sum_tiles {β μ : Type} [Fintype β] (one : EReal) (a : β → Fin 65536 → EReal)
    (c : Fin 65536 → μ → EReal) (e d : β → μ → EReal) (b : β) (m : μ) :
    readOut one a c e d b m = ∑ t : Fin 32, readOut one (tileA a t) (tileC c t) e d b m := by
  unfold readOut
  rw [sum_rows_eq_sum_tiles]
  rfl

/-- A running total over `N` steps that starts at `0 + p 0` and adds `p (k + 1)` at step `k + 1` is, after step `k`, the
    sum of `p 0, …, p k`. -/
theorem running_total {A : Type} [AddCommMonoid A] {N : ℕ} (acc : (k : ℕ) → k < N → A) (p : Fin N → A)
    (h0 : ∀ h, acc 0 h = 0 + p ⟨0, h⟩)
    (hs : ∀ k h, acc (k + 1) h = acc k (Nat.lt_of_succ_lt h) + p ⟨k + 1, h⟩) :
    ∀ (k : ℕ) (h : k < N), acc k h = ∑ t : Fin (k + 1), p (Fin.castLE h t)
  | 0, h => by rw [h0, zero_add, Fin.sum_univ_one]; rfl
  | k + 1, h => by
    rw [hs, running_total acc p h0 hs k]
    exact (Fin.sum_univ_castSucc fun t : Fin (k + 1 + 1) => p (Fin.castLE h t)).symm

/-! ## The same, over rank-two arrays of extended reals -/

open Idealize.ShloMosaic Idealize.ShloMosaic.ValueIdx

/-- The number the write subtracts the aggregated erase weight from: the f32 pattern of one. -/
abbrev one : EReal := Ideal.ofBits .f32 0x3F800000#32

/-- A rank-two array as a function of its row and its column. -/
def mat {R C : Nat} (x : FVec Ideal ⟨2, ![R, C]⟩ .f32) : Fin R → Fin C → EReal := fun r c => x (ix2 r c)

/-- The read, as one function of the four whole arrays: entry `(b, m)` is head `b`'s read of lane `m` over all 65536
    rows of the memory `C` rewritten with the erase array `E` and the add array `D` under the addresses `A`. -/
def result (A : FVec Ideal ⟨2, ![1024, 65536]⟩ .f32) (E D : FVec Ideal ⟨2, ![1024, 128]⟩ .f32)
    (C : FVec Ideal ⟨2, ![65536, 128]⟩ .f32) : FVec Ideal ⟨2, ![1024, 128]⟩ .f32 :=
  fun i => readOut one (mat A) (mat C) (mat E) (mat D) (i 0) (i 1)

end Cert.NtmSpec

end
-- ==== Proof.Tile.lean ====
/-
  The body's arithmetic at one entry, on the extended reals.

  The block stored at the first point is the zero block. The block stored at every point is, at entry `(b, m)`, what the
  scratch held there plus this tile's read: the three matrix products into a zero accumulator are plain sums over the
  contracted coordinate (the two that aggregate the erase and the add blocks contract the batch axis of both operands;
  the read contracts the tile's rows against the rewritten block), the changes of float format are the identity, and
  the subtraction, product and sum are entrywise.
-/
import proofs.«162213_j68324339745366_1_alg».proof.Proof.Gen.KernelIdeal.Skeleton
import proofs.«162213_j68324339745366_1_alg».proof.Proof.LibDot
import proofs.«162213_j68324339745366_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen

open Cert.NtmSpec (one mat)

/-- The block the first point resets the scratch to is zero everywhere. -/
theorem reset_apply (j : S1024x128.Idx) : k0_pay1 (F := Ideal) j = 0 := by
  unfold k0_pay1
  rw [shapeCast_self]
  exact Ideal.ofBits_zero_f32

/-- The stored block at entry `(b, m)`: the running total there plus the tile's read of the address block `x0`, the
    memory block `x3`, the erase block `x1` and the add block `x2`. -/
theorem update_apply (x0 : Vec Ideal S1024x2048 .f32) (x3 : Vec Ideal S2048x128 .f32) (x1 x2 acc : Vec Ideal S1024x128 .f32)
    (b : Fin 1024) (m : Fin 128) :
    k0_pay2 x0 x3 x1 x2 acc (ix2 b m)
      = acc (ix2 b m) + Cert.NtmSpec.readOut one (mat x0) (mat x3) (mat x1) (mat x2) b m := by
  unfold k0_pay2
  rw [shapeCast_self, addf_apply, Cert.LibDot.matmul_10_zero_apply _ rfl rfl rfl rfl rfl rfl]
  unfold Cert.NtmSpec.readOut Cert.NtmSpec.written Cert.NtmSpec.mat
  congr 1
  refine Finset.sum_congr rfl fun j _ => ?_
  rw [truncf_apply, truncf_apply, addf_apply, mulf_apply, subf_apply, broadcast_apply,
    Cert.LibDot.matmul_00_zero_apply _ rfl rfl rfl rfl rfl rfl, Cert.LibDot.matmul_00_zero_apply _ rfl rfl rfl rfl rfl rfl]
  rfl

end Cert.KernelIdeal.Acc

end
-- ==== Proof.Blocks.lean ====
/-
  Which part of each array a window's block is.

  The grid has 32 points, one per tile of 2048 memory rows. At point `t` the address window holds columns
  `2048 t … 2048 t + 2047` of the address array (all 1024 heads), the memory window holds rows `2048 t … 2048 t + 2047` of
  the memory (all 128 lanes), and the erase and add windows hold their whole arrays at every point.
-/
import proofs.«162213_j68324339745366_1_alg».proof.Proof.Gen.KernelIdeal.Frame
import proofs.«162213_j68324339745366_1_alg».proof.Proof.Spec

noncomputable section

open Idealize.ShloMosaic Idealize.ShloMosaic.TcCoe Idealize.ShloMosaic.ValueIdx Idealize.SL.Sem

namespace Cert.KernelIdeal.Acc

open Cert.KernelIdeal Cert.KernelIdeal.Gen
open Cert.NtmSpec (mat tileRow tileA tileC)

variable (m : (ℓ : Loc nD τ sig) → Buf (Elt Ideal) ℓ)

/-- A grid point as a tile number. -/
def tileOf (t : Fin cfg0.N) : Fin 32 := ⟨t.val, lt_of_lt_of_eq t.isLt N_0⟩

/-- The block index of each input window at each point, decided over the grid: the address window moves along its
    second axis, the memory window along its first, the other two stay put. -/
theorem window_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The four input blocks at a point, at their literal types. -/
abbrev addrBlk (c : Dev nD) (t : Fin cfg0.N) : Vec Ideal S1024x2048 .f32 := iblk m c 0 t
abbrev eraseBlk (c : Dev nD) (t : Fin cfg0.N) : Vec Ideal S1024x128 .f32 := iblk m c 1 t
abbrev addBlk (c : Dev nD) (t : Fin cfg0.N) : Vec Ideal S1024x128 .f32 := iblk m c 2 t
abbrev memBlk (c : Dev nD) (t : Fin cfg0.N) : Vec Ideal S2048x128 .f32 := iblk m c 3 t

/-- The four argument arrays, at their literal types. -/
abbrev addrArr (c : Dev nD) : FVec Ideal S1024x65536 .f32 := m ((c : Thread nD τ).loc main_arg0)
abbrev eraseArr (c : Dev nD) : FVec Ideal S1024x128 .f32 := m ((c : Thread nD τ).loc main_arg1)
abbrev addArr (c : Dev nD) : FVec Ideal S1024x128 .f32 := m ((c : Thread nD τ).loc main_arg2)
abbrev memArr (c : Dev nD) : FVec Ideal S65536x128 .f32 := m ((c : Thread nD τ).loc main_arg3)

/-- The address block at point `t` is the tile's columns of the address array. -/
theorem addrBlk_eq (c : Dev nD) (t : Fin cfg0.N) : mat (addrBlk m c t) = tileA (mat (addrArr m c)) (tileOf t) := by
  obtain ⟨e0, e1, -⟩ := window_index t
  funext b j
  show V m c main_arg0 (((cfg0.win 0).blk t).view.emb (ix2 b j)) = m ((c : Thread nD τ).loc main_arg0) (ix2 b (tileRow (tileOf t) j))
  show m ((c : Thread nD τ).loc main_arg0) _ = m ((c : Thread nD τ).loc main_arg0) _
  congr 1
  funext a; apply Fin.ext
  match a with
  | ⟨0, _⟩ => show win0_0.index t (0 : Fin 2) * 1024 + 1 * b.val = b.val; omega
  | ⟨1, _⟩ => show win0_0.index t (1 : Fin 2) * 2048 + 1 * j.val = 2048 * t.val + j.val; omega

/-- The memory block at point `t` is the tile's rows of the memory. -/
theorem memBlk_eq (c : Dev nD) (t : Fin cfg0.N) : mat (memBlk m c t) = tileC (mat (memArr m c)) (tileOf t) := by
  obtain ⟨-, -, -, -, -, -, e0, e1⟩ := window_index t
  funext j l
  show V m c main_arg3 (((cfg0.win 3).blk t).view.emb (ix2 j l)) = m ((c : Thread nD τ).loc main_arg3) (ix2 (tileRow (tileOf t) j) l)
  show m ((c : Thread nD τ).loc main_arg3) _ = m ((c : Thread nD τ).loc main_arg3) _
  congr 1
  funext a; apply Fin.ext
  match a with
  | ⟨0, _⟩ => show win0_3.index t (0 : Fin 2) * 2048 + 1 * j.val = 2048 * t.val + j.val; omega
  | ⟨1, _⟩ => show win0_3.index t (1 : Fin 2) * 128 + 1 * l.val = l.val; omega

/-- The erase block is the whole erase array at every point, -/
theorem eraseBlk_eq (c : Dev nD) (t : Fin cfg0.N) : eraseBlk m c t = eraseArr m c := by
  obtain ⟨-, -, e0, e1, -⟩ := window_index t
  funext i
  show V m c main_arg1 (((cfg0.win 1).blk t).view.emb i) = m ((c : Thread nD τ).loc main_arg1) i
  show m ((c : Thread nD τ).loc main_arg1) _ = m ((c : Thread nD τ).loc main_arg1) _
  congr 1
  funext a; apply Fin.ext
  match a with
  | ⟨0, _⟩ => show win0_1.index t (0 : Fin 2) * 1024 + 1 * (i 0).val = (i 0).val; omega
  | ⟨1, _⟩ => show win0_1.index t (1 : Fin 2) * 128 + 1 * (i 1).val = (i 1).val; omega

/-- and so is the add block the whole add array. -/
theorem addBlk_eq (c : Dev nD) (t : Fin cfg0.N) : addBlk m c t = addArr m c := by
  obtain ⟨-, -, -, -, e0, e1, -⟩ := window_index t
  funext i
  show V m c main_arg2 (((cfg0.win 2).blk t).view.emb i) = m ((c : Thread nD τ).loc main_arg2) i
  show m ((c : Thread nD τ).loc main_arg2) _ = m ((c : Thread nD τ).loc main_arg2) _
  congr 1
  funext a; apply Fin.ext
  match a with
  | ⟨0, _⟩ => show win0_2.index t (0 : Fin 2) * 1024 + 1 * (i 0).val = (i 0).val; omega
  | ⟨1, _⟩ => show win0_2.index t (1 : Fin 2) * 128 + 1 * (i 1).val = (i 1).val; omega

end Cert.KernelIdeal.Acc

end
-- ==== Proof.Total.lean ====
/-
  The running total across the grid.

  Point 0 stores the body's term over the zero block; point `n + 1` stores the body's term over what point `n` left.
  So after point `n` the scratch holds that term iterated over points `0 … n`, and the last point's output buffer holds
  the same block as the scratch. On the extended reals each step adds the tile's read to every entry, so after the last
  point entry `(b, l)` is the sum over all 32 tiles of the tiles' reads, which is the read over all 65536 rows.
-/
import proofs.«162213_j68324339745366_1_alg».proof.Proof.Gen.KernelIdeal.Frame
import proofs.«162213_j68324339745366_1_alg».proof.Proof.Pieces
import proofs.«162213_j68324339745366_1_alg».proof.Proof.Tile
import proofs.«162213_j68324339745366_1_alg».proof.Proof.Blocks

noncomputable section

open scoped BigOperators
open Idealize.ShloMosaic Idealize.ShloMosaic.TcCoe Idealize.ShloMosaic.ValueIdx Idealize.SL.Sem

namespace Cert.KernelIdeal.Acc

open Cert.KernelIdeal Cert.KernelIdeal.Gen
open Cert.NtmSpec (one mat readOut tileA tileC result running_total readOut_eq_sum_tiles)

section AnyValues

variable {F : FTy → Type} [FloatOps F]
variable (m : (ℓ : Loc nD τ sig) → Buf (Elt F) ℓ)

/-- The running total after point `n`: the body's term of the point's four blocks over the total after the point
    before (over the zero block at the first point). -/
def total (c : Dev nD) : (n : ℕ) → n < cfg0.N → Vec F S1024x128 .f32
  | 0, h => k0_pay2 (iblk m c 0 ⟨0, h⟩) (iblk m c 3 ⟨0, h⟩) (iblk m c 1 ⟨0, h⟩) (iblk m c 2 ⟨0, h⟩) (k0_pay1 (F := F))
  | n + 1, h => k0_pay2 (iblk m c 0 ⟨n + 1, h⟩) (iblk m c 3 ⟨n + 1, h⟩) (iblk m c 1 ⟨n + 1, h⟩) (iblk m c 2 ⟨n + 1, h⟩)
      (total c n (Nat.lt_of_succ_lt h))

/-- After every point the scratch holds the running total: by induction on the point, each point in the case its
    position selects. -/
theorem scratch_eq_total (c : Dev nD) : ∀ (n : ℕ) (h : n < cfg0.N), (outsAt0 m c n h).2 = total m c n h
  | 0, h => by
    rw [outsAt0_A m c ⟨0, h⟩ rfl (show ¬(0 : ℕ) % 32 = 31 by decide)]
    dsimp only
    exact scratch_first (F := F) ..
  | n + 1, h => by
    have hN : n + 1 < 32 := lt_of_lt_of_eq h N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [scratch_last]
      show k0_pay2 _ _ _ _ (outsAt0 m c n _).2 = k0_pay2 _ _ _ _ (total m c n _)
      rw [scratch_eq_total c n]
    · rw [outsAt0_B m c ⟨n + 1, h⟩ h0 h1]
      dsimp only
      rw [scratch_middle]
      show k0_pay2 _ _ _ _ (outsAt0 m c n _).2 = k0_pay2 _ _ _ _ (total m c n _)
      rw [scratch_eq_total c n]

/-- After the last point the output buffer holds the running total too. -/
theorem output_eq_total (c : Dev nD) (h : 31 < cfg0.N) : (outsAt0 m c 31 h).1 = total m c 31 h := by
  rw [outsAt0_C m c ⟨31, h⟩ (show ¬(31 : ℕ) % 32 = 0 by decide) (show (31 : ℕ) % 32 = 31 by decide)]
  dsimp only
  rw [output_last]
  show k0_pay2 _ _ _ _ (outsAt0 m c 30 _).2 = k0_pay2 _ _ _ _ (total m c 30 _)
  rw [scratch_eq_total m c 30]

end AnyValues

section ExtendedReals

variable (m : (ℓ : Loc nD τ sig) → Buf (Elt Ideal) ℓ)

/-- Tile `t`'s read at entry `(b, l)`: the read over the tile's 2048 rows of the whole arrays. -/
def tileRead (c : Dev nD) (b : Fin 1024) (l : Fin 128) (t : Fin cfg0.N) : EReal :=
  readOut one (tileA (mat (addrArr m c)) (tileOf t)) (tileC (mat (memArr m c)) (tileOf t)) (mat (eraseArr m c))
    (mat (addArr m c)) b l

/-- The body's term of a point's blocks, at an entry: what it is added to, plus the tile's read. -/
theorem step_apply (c : Dev nD) (t : Fin cfg0.N) (acc : Vec Ideal S1024x128 .f32) (b : Fin 1024) (l : Fin 128) :
    k0_pay2 (addrBlk m c t) (memBlk m c t) (eraseBlk m c t) (addBlk m c t) acc (ix2 b l)
      = acc (ix2 b l) + tileRead m c b l t := by
  refine (update_apply (addrBlk m c t) (memBlk m c t) (eraseBlk m c t) (addBlk m c t) acc b l).trans ?_
  rw [addrBlk_eq m c t, memBlk_eq m c t, eraseBlk_eq m c t, addBlk_eq m c t]
  rfl

/-- The total after the first point, at an entry: zero plus the first tile's read. -/
theorem total_zero_apply (c : Dev nD) (h : 0 < cfg0.N) (b : Fin 1024) (l : Fin 128) :
    total m c 0 h (ix2 b l) = 0 + tileRead m c b l ⟨0, h⟩ := by
  show k0_pay2 (addrBlk m c ⟨0, h⟩) (memBlk m c ⟨0, h⟩) (eraseBlk m c ⟨0, h⟩) (addBlk m c ⟨0, h⟩) (k0_pay1 (F := Ideal)) (ix2 b l) = _
  refine (step_apply m c ⟨0, h⟩ (k0_pay1 (F := Ideal)) b l).trans ?_
  rw [reset_apply]

/-- The total after a later point, at an entry: the total before plus that tile's read. -/
theorem total_succ_apply (c : Dev nD) (k : ℕ) (h : k + 1 < cfg0.N) (b : Fin 1024) (l : Fin 128) :
    total m c (k + 1) h (ix2 b l) = total m c k (Nat.lt_of_succ_lt h) (ix2 b l) + tileRead m c b l ⟨k + 1, h⟩ := by
  show k0_pay2 (addrBlk m c ⟨k + 1, h⟩) (memBlk m c ⟨k + 1, h⟩) (eraseBlk m c ⟨k + 1, h⟩) (addBlk m c ⟨k + 1, h⟩)
    (total m c k (Nat.lt_of_succ_lt h)) (ix2 b l) = _
  exact step_apply m c ⟨k + 1, h⟩ (total m c k (Nat.lt_of_succ_lt h)) b l

/-- After the last point the running total is the read of the whole arrays. -/
theorem total_last (c : Dev nD) (h : 31 < cfg0.N) :
    total m c 31 h = result (addrArr m c) (eraseArr m c) (addArr m c) (memArr m c) := by
  funext i
  obtain ⟨b, l, rfl⟩ : ∃ (b : Fin 1024) (l : Fin 128), i = ix2 b l := ⟨i 0, i 1, eq_ix2 i⟩
  rw [running_total (fun k hk => total m c k hk (ix2 b l)) (tileRead m c b l)
    (fun h0 => total_zero_apply m c h0 b l) (fun k hk => total_succ_apply m c k hk b l) 31 h]
  unfold result
  rw [readOut_eq_sum_tiles]
  exact Finset.sum_congr rfl fun t _ => rfl

end ExtendedReals

end Cert.KernelIdeal.Acc

end
-- ==== Proof.Final.lean ====
/-
  The result array after the run.

  The output window's block is the whole result array at every point, and only the last point writes it back. What it
  writes is the running total after the last point, which is the read of the whole arrays; that one block covers the
  array. So every execution of the idealized kernel ends with the result array holding the read of its four arguments,
  and the arguments unchanged.
-/
import proofs.«162213_j68324339745366_1_alg».proof.Proof.Gen.KernelIdeal.Value
import proofs.«162213_j68324339745366_1_alg».proof.Proof.Total

noncomputable section

open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen
open Cert.NtmSpec (result)

variable (m : (ℓ : Loc nD τ sig) → Buf (Elt Ideal) ℓ) (ρ : Dev nD → PrngReg)

/-- The grid has a point 31, its last. -/
theorem last_lt : 31 < cfg0.N := lt_of_lt_of_eq (by decide) N_0.symm

/-- The output window's block index is zero on both axes at every point. -/
theorem out_index : ∀ t : Fin cfg0.N, win0_4.index t (0 : Fin 2) = 0 ∧ win0_4.index t (1 : Fin 2) = 0 :=
  (by decide +kernel : ∀ t : Fin grid0.N, _)

/-- The read of the whole arrays, as contents of the result array. -/
abbrev readArr (c : Dev nD) : Buf (Elt Ideal) ((c : Thread nD τ).loc main_v0) :=
  result (addrArr m c) (eraseArr m c) (addArr m c) (memArr m c)

/-- The one write-back writes the read: the point is the last one, its output buffer holds the running total, and the
    block read through zero offsets is the array itself. -/
theorem flushed_eq (c : Dev nD) (t : Fin cfg0.N) (hf : (cfg0.win 4).flush t = true) :
    (dats m 0 c).flushed 4 t = ((cfg0.win 4).blk t).view.read (Elt Ideal) (readArr m c) := by
  have hN : cfg0.N = 32 := N_0
  have h31 : t.val = 31 := by have := (flush0_4 t).mp hf; have := t.isLt; omega
  obtain rfl : t = ⟨31, last_lt⟩ := Fin.ext h31
  show (cfg0.win 4).cut (grid0.coords ⟨31, last_lt⟩) ((dats m 0 c).after 4 ⟨31, last_lt⟩) = _
  rw [after0_4]
  rw [show (outsAt0 m c (⟨31, last_lt⟩ : Fin cfg0.N).val (⟨31, last_lt⟩ : Fin cfg0.N).isLt).1 = readArr m c from
    (output_eq_total m c last_lt).trans (total_last m c last_lt)]
  obtain ⟨e0, e1⟩ := out_index ⟨31, last_lt⟩
  have hz' : (fun a => win0_4.index ⟨31, last_lt⟩ a * main_v0.ty.shape.size a) = fun _ => 0 := funext fun a => by
    match a with
    | ⟨0, _⟩ => show win0_4.index ⟨31, last_lt⟩ (0 : Fin 2) * 1024 = 0; rw [e0]
    | ⟨1, _⟩ => show win0_4.index ⟨31, last_lt⟩ (1 : Fin 2) * 128 = 0; rw [e1]
  exact (Memref.read_access_unit_zero (Elt Ideal) main_v0 hz' (fun a => by rw [congrFun hz' a]; simp) (readArr m c)).symm

/-- The last point's block is the whole result array, so the array ends holding the read. -/
theorem final_out (c : Dev nD) : (dats m 0 c).arrAt 4 cfg0.N = readArr m c :=
  (dats m 0 c).arrAt_eq_of_cover 4 (readArr m c) (flushed_eq m c) fun i =>
    ⟨⟨31, last_lt⟩, (flush0_4 ⟨31, last_lt⟩).mpr rfl, by
      show i ∈ ((View.whole main_v0).slice (win0_4.rect ⟨31, last_lt⟩)).set
      rw [View.set_slice_whole, Rect.mem_set_unit]
      obtain ⟨e0, e1⟩ := out_index ⟨31, last_lt⟩
      have h0 : (i 0 : Nat) < 1024 := (i 0).isLt
      have h1 : (i 1 : Nat) < 128 := (i 1).isLt
      intro a
      match a with
      | ⟨0, _⟩ =>
        show win0_4.index ⟨31, last_lt⟩ (0 : Fin 2) * 1024 ≤ (i 0 : Nat) ∧ (i 0 : Nat) < win0_4.index ⟨31, last_lt⟩ (0 : Fin 2) * 1024 + 1024
        omega
      | ⟨1, _⟩ =>
        show win0_4.index ⟨31, last_lt⟩ (1 : Fin 2) * 128 ≤ (i 1 : Nat) ∧ (i 1 : Nat) < win0_4.index ⟨31, last_lt⟩ (1 : Fin 2) * 128 + 128
        omega⟩

/-- The run, read: the result array at the read of the arguments, the arguments unchanged. -/
theorem run : θ_run defs (onTc (τ := τ) (main (F := Ideal))) ⟨m, fun _ => 0, ρ⟩ fun r => ∀ c : Dev nD,
      r.2.mem ((c : Thread nD τ).loc main_v0) = readArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2⟩)
    (Cert.KernelIdeal.Value.run_blocks m ρ)

end Cert.KernelIdeal.Acc

end
-- ==== Proof.RefValue.lean ====
/-
  The reference computes the read as one function of its four arguments.

  Its last operation contracts the address array's rows against the rewritten memory; the rewritten memory is the
  entrywise `C * (one - erase) + add`, where `erase` and `add` contract the batch axis of the address array against the
  erase and the add arrays. Read at entry `(b, m)` this is the address-weighted sum over all rows of the rewritten
  entries.
-/
import proofs.«162213_j68324339745366_1_alg».proof.Proof.Gen.ReferenceIdeal.Read
import proofs.«162213_j68324339745366_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read
open Cert.NtmSpec (one mat readOut written result)

/-- Entry `(b, m)` of the read contracts row `b` of the addresses against column `m` of the rewritten memory, -/
theorem addr_row (b : Fin 1024) (m : Fin 128) (n : Fin 65536) : lidx_main_v6 (ix2 b m) n = ix2 b n :=
  funext fun a => Fin.ext (by match a with | ⟨0, _⟩ => rfl | ⟨1, _⟩ => rfl)
theorem mem_col (b : Fin 1024) (m : Fin 128) (n : Fin 65536) : ridx_main_v6 (ix2 b m) n = ix2 n m :=
  funext fun a => Fin.ext (by match a with | ⟨0, _⟩ => rfl | ⟨1, _⟩ => rfl)
/-- and entry `(n, m)` of either aggregate contracts column `n` of the addresses against column `m` of the other
    operand, over the batch. -/
theorem erase_addr (n : Fin 65536) (m : Fin 128) (k : Fin 1024) : lidx_main_v0 (ix2 n m) k = ix2 k n :=
  funext fun a => Fin.ext (by match a with | ⟨0, _⟩ => rfl | ⟨1, _⟩ => rfl)
theorem erase_col (n : Fin 65536) (m : Fin 128) (k : Fin 1024) : ridx_main_v0 (ix2 n m) k = ix2 k m :=
  funext fun a => Fin.ext (by match a with | ⟨0, _⟩ => rfl | ⟨1, _⟩ => rfl)
theorem add_addr (n : Fin 65536) (m : Fin 128) (k : Fin 1024) : lidx_main_v1 (ix2 n m) k = ix2 k n :=
  funext fun a => Fin.ext (by match a with | ⟨0, _⟩ => rfl | ⟨1, _⟩ => rfl)
theorem add_col (n : Fin 65536) (m : Fin 128) (k : Fin 1024) : ridx_main_v1 (ix2 n m) k = ix2 k m :=
  funext fun a => Fin.ext (by match a with | ⟨0, _⟩ => rfl | ⟨1, _⟩ => rfl)

/-- The reference's last stage is the read of the whole arrays. -/
theorem stage_eq_result (A : FVec Ideal S1024x65536 .f32) (E D : FVec Ideal S1024x128 .f32) (C : FVec Ideal S65536x128 .f32) :
    val_main_v6 (F := Ideal) A E D C = result A E D C := by
  funext i
  obtain ⟨b, m, rfl⟩ : ∃ (b : Fin 1024) (m : Fin 128), i = ix2 b m := ⟨i 0, i 1, eq_ix2 i⟩
  rw [val_main_v6_apply]
  unfold result readOut written mat
  refine Finset.sum_congr rfl fun n _ => ?_
  rw [addr_row, mem_col, val_main_v5_apply, val_main_v4_apply, val_main_v3_apply, val_main_v2_apply, val_main_cst_apply,
    val_main_v0_apply, val_main_v1_apply]
  simp only [erase_addr, erase_col, add_addr, add_col]
  rfl

end Cert.ReferenceIdeal.RefValue

end
-- ==== Proof.lean ====
/-
  A memory of 65536 rows of width 128 is written and then read by a batch of 1024 heads. With address weights `a b n`,
  erase and add vectors `e b m`, `d b m` and old contents `c n m`, the new row is
  `c n m * (1 - ∑ b, a b n * e b m) + ∑ b, a b n * d b m` and head `b` reads `∑ n, a b n * new n m`.

  The reference computes exactly this with three contractions over whole arrays. The kernel never forms the new memory:
  it walks the rows in 32 tiles of 2048, forms each tile's new rows from the tile's columns of the addresses and the
  tile's rows of the memory, contracts them against the same address columns, and adds the tile's read to a running
  total that starts at zero; after the last tile the total is copied out. On the extended reals a change of float format
  is the identity and a matrix product into a zero accumulator is the plain sum over the contracted coordinate, so each
  tile's read is the read restricted to the tile's rows, and since addition there is commutative and associative with
  neutral element zero the running total after the last tile is the sum over all rows. No inverse, cancellation or
  distributive law is used, so the finiteness of the inputs is not needed for the equality.

  The kernel and its idealization run and leave their arguments unchanged by the generated frames; the reference's frame
  is its generated run. The idealization rewrote no operation, so there is nothing to preserve.
-/
import proofs.«162213_j68324339745366_1_alg».proof.Defs
import proofs.«162213_j68324339745366_1_alg».proof.Proof.Gen.Kernel
import proofs.«162213_j68324339745366_1_alg».proof.Proof.Gen.Kernel.Skeleton
import proofs.«162213_j68324339745366_1_alg».proof.Proof.Gen.Kernel.Launch
import proofs.«162213_j68324339745366_1_alg».proof.Proof.Gen.Kernel.Points
import proofs.«162213_j68324339745366_1_alg».proof.Proof.Gen.Kernel.Frame
import proofs.«162213_j68324339745366_1_alg».proof.Proof.Gen.KernelIdeal
import proofs.«162213_j68324339745366_1_alg».proof.Proof.Gen.KernelIdeal.Skeleton
import proofs.«162213_j68324339745366_1_alg».proof.Proof.Gen.KernelIdeal.Launch
import proofs.«162213_j68324339745366_1_alg».proof.Proof.Gen.KernelIdeal.Points
import proofs.«162213_j68324339745366_1_alg».proof.Proof.Gen.KernelIdeal.Frame
import proofs.«162213_j68324339745366_1_alg».proof.Proof.Gen.ReferenceIdeal
import proofs.«162213_j68324339745366_1_alg».proof.Proof.Gen.Pre_finite_inputs
import proofs.«162213_j68324339745366_1_alg».proof.Proof.Gen.KernelIdeal.Value
import proofs.«162213_j68324339745366_1_alg».proof.Proof.Gen.ReferenceIdeal.Run
import proofs.«162213_j68324339745366_1_alg».proof.Proof.Gen.ReferenceIdeal.Read
import proofs.«162213_j68324339745366_1_alg».proof.Proof.Final
import proofs.«162213_j68324339745366_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it computes forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the idealized kernel's result array ends at the read of its arguments (the running
    total over the tiles) and the reference's at its three contractions of the same arguments: one function. -/
theorem algebraic : Cert.algebraic_KernelIdeal_ReferenceIdeal := by
  intro m ρ m' ρ' _ hagree
  refine ⟨fun c => Cert.KernelIdeal.Acc.readArr m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.stage_eq_result _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
